-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16 : Shape := ⟨2, ![256, 16]⟩
abbrev S16384x16384 : Shape := ⟨2, ![16384, 16384]⟩
abbrev S16384 : Shape := ⟨1, ![16384]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384 : S_.BroadcastsInDim S16384 (![] : Fin 0 → Fin S16384.rank)
  reducesTo_S16384_S_d0 : S16384.ReducesTo [0] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : IVec S256x16 32) (main_arg1 : FVec F S16384x16384 .f32) (main_arg2 : FVec F S16384 .f32) : IVec S_ 1 :=
  let main_v0 : FVec F S16384x16384 .f32 := Host.absf main_arg1
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_c_2 : IVec S_ 32 := constantI S_ 32 0#32
  let main_v9 : IVec S256x16 32 := broadcastInDim S256x16 ![] bcast_S_S256x16 main_c_2
  let main_v10 : IVec S256x16 1 := cmpi .sge main_arg0 main_v9
  let main_c_3 : IVec S_ 32 := constantI S_ 32 1024#32
  let main_v11 : IVec S256x16 32 := broadcastInDim S256x16 ![] bcast_S_S256x16 main_c_3
  let main_v12 : IVec S256x16 1 := cmpi .slt main_arg0 main_v11
  let main_v13 : IVec S256x16 1 := andi main_v10 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v8 main_v14
  main_v15
-- ==== Kernel.lean ====
abbrev S256x16 : Shape := ⟨2, ![256, 16]⟩
abbrev S16384x16384 : Shape := ⟨2, ![16384, 16384]⟩
abbrev S16384 : Shape := ⟨1, ![16384]⟩
abbrev S_ : Shape := ⟨0, ![]⟩
abbrev S256x16x1 : Shape := ⟨3, ![256, 16, 1]⟩
abbrev S1x1x1024 : Shape := ⟨3, ![1, 1, 1024]⟩
abbrev S256x16x1024 : Shape := ⟨3, ![256, 16, 1024]⟩
abbrev S256x16384 : Shape := ⟨2, ![256, 16384]⟩
abbrev S1x16384 : Shape := ⟨2, ![1, 16384]⟩
abbrev S1x256 : Shape := ⟨2, ![1, 256]⟩
abbrev S256x256 : Shape := ⟨2, ![256, 256]⟩
abbrev S256x1024 : Shape := ⟨2, ![256, 1024]⟩

abbrev nBuf : Space → Nat
  | .hbm => 21
  | .vmem => 7
  | .smem => 0
  | _ => 0

abbrev bufTy : (tb : Table) → Fin (tcTables nBuf tb) → BufTy
  | .hbm, ⟨0, _⟩ => ⟨S256x16, .i32⟩
  | .hbm, ⟨1, _⟩ => ⟨S16384x16384, .f32⟩
  | .hbm, ⟨2, _⟩ => ⟨S16384, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S256x16, .i32⟩
  | .hbm, ⟨7, _⟩ => ⟨S256x16, .i32⟩
  | .hbm, ⟨8, _⟩ => ⟨S_, .i32⟩
  | .hbm, ⟨9, _⟩ => ⟨S256x16, .i32⟩
  | .hbm, ⟨10, _⟩ => ⟨S256x16, .i32⟩
  | .hbm, ⟨11, _⟩ => ⟨S256x16x1, .i32⟩
  | .hbm, ⟨12, _⟩ => ⟨S1x1x1024, .i32⟩
  | .hbm, ⟨13, _⟩ => ⟨S256x16x1024, .i32⟩
  | .hbm, ⟨14, _⟩ => ⟨S256x16x1024, .i32⟩
  | .hbm, ⟨15, _⟩ => ⟨S256x16x1024, .i1⟩
  | .hbm, ⟨16, _⟩ => ⟨S256x16x1024, .bf16⟩
  | .hbm, ⟨17, _⟩ => ⟨S256x16384, .bf16⟩
  | .hbm, ⟨18, _⟩ => ⟨S1x16384, .f32⟩
  | .hbm, ⟨19, _⟩ => ⟨S256x16384, .f32⟩
  | .hbm, ⟨20, _⟩ => ⟨S256x16x1024, .f32⟩
  | .local _ .vmem, ⟨0, _⟩ => ⟨S256x16384, .bf16⟩
  | .local _ .vmem, ⟨1, _⟩ => ⟨S256x16384, .f32⟩
  | .local _ .vmem, ⟨2, _⟩ => ⟨S256x16384, .f32⟩
  | .local _ .vmem, ⟨3, _⟩ => ⟨S1x256, .f32⟩
  | .local _ .vmem, ⟨4, _⟩ => ⟨S1x256, .f32⟩
  | .local _ .vmem, ⟨5, _⟩ => ⟨S256x256, .f32⟩
  | .local _ .vmem, ⟨6, _⟩ => ⟨S256x256, .f32⟩
  | _, _ => ⟨S256x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v10 : BitVec 32 := Scalar.muli arg5 c1024_i32
  v10
def k0_off1 (k0_t1 : Fin k0_t1_loop.trips) : Fin 2 → Nat :=
  let c0_5 : Index := 0#32
  let c0_i32 : BitVec 32 := 0#32
  let c1_i32 : BitVec 32 := 1#32
  let arg5 : BitVec 32 := Scf.iv c0_i32 c1_i32 k0_t1
  let c1024_i32 : BitVec 32 := 1024#32
  let v10 : BitVec 32 := Scalar.muli arg5 c1024_i32
  let v11 : BitVec 32 := v10
  let v12 : Index := Scalar.indexCast v11
  ![0, v12.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256x16 : S_.BroadcastsInDim S256x16 (![] : Fin 0 → Fin S256x16.rank)
  bcast_S256x16_S256x16x1_0_1 : S256x16.BroadcastsInDim S256x16x1 (![0, 1] : Fin 2 → Fin S256x16x1.rank)
  bcast_S256x16x1_S256x16x1024_0_1_2 : S256x16x1.BroadcastsInDim S256x16x1024 (![0, 1, 2] : Fin 3 → Fin S256x16x1024.rank)
  bcast_S1x1x1024_S256x16x1024_0_1_2 : S1x1x1024.BroadcastsInDim S256x16x1024 (![0, 1, 2] : Fin 3 → Fin S256x16x1024.rank)
  shapeCasts_S256x16x1024_S256x16384 : S256x16x1024.ShapeCasts S256x16384
  shapeCasts_S16384_S1x16384 : S16384.ShapeCasts S1x16384
  h_S256x1024 : 0 < S256x1024.numel
  shapeCasts_S256x1024_S256x1024 : S256x1024.ShapeCasts S256x1024
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x16384_S256x16x1024 : S256x16384.ShapeCasts S256x16x1024
  dot_S256x1024_S256x1024_S256x256_1_1_0_0_n_n_wf : DotDims.WF S256x1024 S256x1024 S256x256 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S256x1024.size a ≤ S256x16384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S256x16384.size a
  hwx0_0 : ∀ i : grid0.Coords, EltTy.bits .bf16 = 32 ∨ (Rect.block (s := S256x16384) S256x16384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16384.size a ≤ S16384x16384.size a
  hwx0_1 : ∀ i : grid0.Coords, EltTy.bits .f32 = 32 ∨ (Rect.block (s := S16384x16384) S256x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x16384.size a
  hwx0_2 : ∀ i : grid0.Coords, EltTy.bits .f32 = 32 ∨ (Rect.block (s := S1x16384) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x16384.size a
  hwx0_3 : ∀ i : grid0.Coords, EltTy.bits .f32 = 32 ∨ (Rect.block (s := S256x16384) S256x256.size (cc0_transform_3 i) (hinb0_3 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_v2) S256x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x16 : Shape := ⟨2, ![256, 16]⟩
abbrev S16384x16384 : Shape := ⟨2, ![16384, 16384]⟩
abbrev S16384 : Shape := ⟨1, ![16384]⟩
abbrev S16 : Shape := ⟨1, ![16]⟩
abbrev S_ : Shape := ⟨0, ![]⟩
abbrev S1x16 : Shape := ⟨2, ![1, 16]⟩
abbrev S256x16x1 : Shape := ⟨3, ![256, 16, 1]⟩
abbrev S1 : Shape := ⟨1, ![1]⟩
abbrev S1x1x1 : Shape := ⟨3, ![1, 1, 1]⟩
abbrev S256x16x16384 : Shape := ⟨3, ![256, 16, 16384]⟩
abbrev S256x16384 : Shape := ⟨2, ![256, 16384]⟩
abbrev S1x16384 : Shape := ⟨2, ![1, 16384]⟩
abbrev S256x16x1024 : Shape := ⟨3, ![256, 16, 1024]⟩

abbrev nBuf : Space → Nat
  | .hbm => 43
  | .vmem => 0
  | .smem => 0
  | _ => 0

abbrev bufTy : (tb : Table) → Fin (tcTables nBuf tb) → BufTy
  | .hbm, ⟨0, _⟩ => ⟨S256x16, .i32⟩
  | .hbm, ⟨1, _⟩ => ⟨S16384x16384, .f32⟩
  | .hbm, ⟨2, _⟩ => ⟨S16384, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S1x16, .i32⟩
  | .hbm, ⟨8, _⟩ => ⟨S256x16, .i32⟩
  | .hbm, ⟨9, _⟩ => ⟨S256x16, .i32⟩
  | .hbm, ⟨10, _⟩ => ⟨S16384x16384, .f32⟩
  | .hbm, ⟨11, _⟩ => ⟨S_, .i32⟩
  | .hbm, ⟨12, _⟩ => ⟨S256x16, .i32⟩
  | .hbm, ⟨13, _⟩ => ⟨S256x16, .i1⟩
  | .hbm, ⟨14, _⟩ => ⟨S_, .i32⟩
  | .hbm, ⟨15, _⟩ => ⟨S256x16, .i32⟩
  | .hbm, ⟨16, _⟩ => ⟨S256x16, .i32⟩
  | .hbm, ⟨17, _⟩ => ⟨S256x16, .i32⟩
  | .hbm, ⟨18, _⟩ => ⟨S256x16x1, .i32⟩
  | .hbm, ⟨19, _⟩ => ⟨S1, .i32⟩
  | .hbm, ⟨20, _⟩ => ⟨S_, .i32⟩
  | .hbm, ⟨21, _⟩ => ⟨S256x16x1, .i32⟩
  | .hbm, ⟨22, _⟩ => ⟨S256x16x1, .i1⟩
  | .hbm, ⟨23, _⟩ => ⟨S1x1x1, .i32⟩
  | .hbm, ⟨24, _⟩ => ⟨S256x16x1, .i32⟩
  | .hbm, ⟨25, _⟩ => ⟨S256x16x1, .i1⟩
  | .hbm, ⟨26, _⟩ => ⟨S256x16x1, .i1⟩
  | .hbm, ⟨27, _⟩ => ⟨S_, .i1⟩
  | .hbm, ⟨28, _⟩ => ⟨S256x16, .i1⟩
  | .hbm, ⟨29, _⟩ => ⟨S256x16x16384, .f32⟩
  | .hbm, ⟨30, _⟩ => ⟨S256x16x16384, .i1⟩
  | .hbm, ⟨31, _⟩ => ⟨S_, .f32⟩
  | .hbm, ⟨32, _⟩ => ⟨S256x16x16384, .f32⟩
  | .hbm, ⟨33, _⟩ => ⟨S256x16x16384, .f32⟩
  | .hbm, ⟨34, _⟩ => ⟨S_, .f32⟩
  | .hbm, ⟨35, _⟩ => ⟨S256x16384, .f32⟩
  | .hbm, ⟨36, _⟩ => ⟨S1x16384, .f32⟩
  | .hbm, ⟨37, _⟩ => ⟨S256x16384, .f32⟩
  | .hbm, ⟨38, _⟩ => ⟨S256x16384, .f32⟩
  | .hbm, ⟨39, _⟩ => ⟨S256x16x1024, .f32⟩
  | .hbm, ⟨40, _⟩ => ⟨S_, .f32⟩
  | .hbm, ⟨41, _⟩ => ⟨S256x16x1024, .f32⟩
  | .hbm, ⟨42, _⟩ => ⟨S256x16x1024, .f32⟩
  | _, _ => ⟨S256x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_cst : Ref sig .tc := ⟨.hbm, 40, rfl⟩
abbrev main_call1_v0 : Ref sig .tc := ⟨.hbm, 41, rfl⟩
abbrev main_v13 : Ref sig .tc := ⟨.hbm, 42, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  transposes_S16384x16384_S16384x16384_1_0 : S16384x16384.Transposes [1, 0] S16384x16384
  bcast_S_S256x16 : S_.BroadcastsInDim S256x16 (![] : Fin 0 → Fin S256x16.rank)
  bcast_S256x16_S256x16x1_0_1 : S256x16.BroadcastsInDim S256x16x1 (![0, 1] : Fin 2 → Fin S256x16x1.rank)
  bcast_S_S256x16x1 : S_.BroadcastsInDim S256x16x1 (![] : Fin 0 → Fin S256x16x1.rank)
  bcast_S1_S1x1x1_2 : S1.BroadcastsInDim S1x1x1 (![2] : Fin 1 → Fin S1x1x1.rank)
  bcast_S1x1x1_S256x16x1_0_1_2 : S1x1x1.BroadcastsInDim S256x16x1 (![0, 1, 2] : Fin 3 → Fin S256x16x1.rank)
  reducesTo_S256x16x1_S256x16_d2 : S256x16x1.ReducesTo [2] S256x16
  h_S_ : 0 < S_.numel
  bcast_S256x16_S256x16x16384_0_1 : S256x16.BroadcastsInDim S256x16x16384 (![0, 1] : Fin 2 → Fin S256x16x16384.rank)
  bcast_S_S256x16x16384 : S_.BroadcastsInDim S256x16x16384 (![] : Fin 0 → Fin S256x16x16384.rank)
  reducesTo_S256x16x16384_S256x16384_d1 : S256x16x16384.ReducesTo [1] S256x16384
  bcast_S16384_S1x16384_1 : S16384.BroadcastsInDim S1x16384 (![1] : Fin 1 → Fin S1x16384.rank)
  bcast_S1x16384_S256x16384_0_1 : S1x16384.BroadcastsInDim S256x16384 (![0, 1] : Fin 2 → Fin S256x16384.rank)
  shapeCasts_S256x16384_S256x16x1024 : S256x16384.ShapeCasts S256x16x1024
  bcast_S_S256x16x1024 : S_.BroadcastsInDim S256x16x1024 (![] : Fin 0 → Fin S256x16x1024.rank)
  gather_S16384x16384_S256x16x1_S256x16x16384_2_0_n_n_0_2_116384_wf : GatherDims.WF S16384x16384 S256x16x1 S256x16x16384 [2] [0] [] [0] [] 2 ![1, 16384]

variable [Facts₀]

def gather_S16384x16384_S256x16x1_S256x16x16384_2_0_n_n_0_2_116384 : GatherDims S16384x16384 S256x16x1 S256x16x16384 where
  offsetDims := [2]
  collapsedSliceDims := [0]
  operandBatchingDims := []
  startIndicesBatchingDims := []
  startIndexMap := [0]
  indexVectorDim := 2
  sliceSizes := ![1, 16384]
  wf := gather_S16384x16384_S256x16x1_S256x16x16384_2_0_n_n_0_2_116384_wf

class Facts : Prop extends Facts₀ where

variable [Facts]
-- ==== Proof.PreDecode.lean ====
/-
  What the precondition says about the token ids: every entry of `x`, read as an unsigned 32-bit number, is
  below 1024 (the printed predicate's last conjunct is the and, over all entries, of `0 ≤ x` and `x < 1024`
  as signed comparisons; a word that is non-negative as a signed number and below 1024 is below 1024 as an
  unsigned one).
-/
import proofs.«409263_j59837484368248_3_alg».proof.Proof.Gen.Pre_finite_inputs
import Idealize.ShloMosaic.PureOps.Ideal
import Idealize.ShloMosaic.Lib.ReduceAll
import Idealize.ShloMosaic.Lib.StableHlo.Predicate

noncomputable section

namespace Cert.PreDecode

open Cert.Pre_finite_inputs Cert.Pre_finite_inputs.Gen Idealize.ShloMosaic

/-- Under the precondition every token id is below 1024. -/
theorem tok_lt (x : IVec S256x16 32) (W : FVec Ideal S16384x16384 .f32) (b : FVec Ideal S16384 .f32)
    (h : Cert.Pre_finite_inputs.fn (F := Ideal) x W b = fun _ => 1#1) :
    ∀ i : S256x16.Idx, (x i).toNat < 1024 := by
  intro i
  -- The predicate is a rank-0 word; read it at its one index.
  have h0 := congrFun h (fun a => a.elim0)
  dsimp only [Cert.Pre_finite_inputs.fn] at h0
  -- It is the and of the two float conjuncts with the integer conjunct; keep the latter.
  have h1 := (IntOp.andi_eq_one.1 h0).2
  -- The integer conjunct is an and-reduction over every entry that came out 1, so every entry is 1.
  haveI : Subsingleton S_.Idx := ⟨fun a b => funext fun d => d.elim0⟩
  have h2 := Host.reduce_andi_all _ _ _ _ _ h1 i
  -- The entry at `i` is the and of two signed comparisons, each of which therefore holds.
  obtain ⟨hge, hlt⟩ := IntOp.andi_eq_one.1 h2
  have hge' := IntOp.cmpi_sge.1 hge
  have hlt' := IntOp.cmpi_slt.1 hlt
  -- A scalar constant broadcast over the array reads as that constant at every index.
  have e0 : broadcastInDim S256x16 ![] bcast_S_S256x16 (constantI S_ 32 0#32) i = 0#32 := rfl
  have e1 : broadcastInDim S256x16 ![] bcast_S_S256x16 (constantI S_ 32 1024#32) i = 1024#32 := rfl
  rw [e0] at hge'
  rw [e1] at hlt'
  -- The two literals read as the integers 0 and 1024.
  have z0 : (0#32 : BitVec 32).toInt = 0 := by decide
  have z1 : (1024#32 : BitVec 32).toInt = 1024 := by decide
  rw [z0] at hge'
  rw [z1] at hlt'
  -- A word whose signed value is non-negative has that value as its unsigned value, which is below 1024.
  have e := BitVec.toInt_eq_toNat_cond (x i)
  have hb := (x i).isLt
  omega

end Cert.PreDecode

end
-- ==== Proof.RefTerm.lean ====
/-
  The reference program's result as ONE pure term of its three argument arrays, stage by stage, in the order
  its host operations run (the outlined take, where and relu written out at their call sites):

  * `idxOf x`    — `x + t * 1024` at `(p, t)` (32-bit, wrapping): the flattened row index the take uses;
  * `wrapOf i`   — `i + 16384` where `i` is negative, else `i` (the take's wrap of negative indices);
  * `startOf w`  — the same numbers with a trailing unit axis, the gather's start indices;
  * `maskOf s`   — 1 where `0 ≤ s ≤ 16383`, the and over the unit axis;
  * `rowsOf W s` — row `s (p, t)` of the transposed `W` where the mask is 1, the fill word elsewhere;
  * `refTerm`    — the sum of the sixteen selected rows over `t` from 0, plus the bias row, reshaped to
                    `[256, 16, 1024]`, and the maximum with 0.
-/
import proofs.«409263_j59837484368248_3_alg».proof.Proof.Gen.ReferenceIdeal

noncomputable section

namespace Cert.RefTerm

open Cert.ReferenceIdeal Cert.ReferenceIdeal.Gen Idealize.ShloMosaic

variable {F : FTy → Type} [FloatOps F]

/-- `x + t * 1024`: the row of the transposed matrix that token slot `t` of input row `p` asks for. -/
def idxOf (x : IVec S256x16 32) : IVec S256x16 32 :=
  addi x (broadcastInDim S256x16 ![0, 1] bcast_S1x16_S256x16_0_1
    (broadcastInDim S1x16 ![1] bcast_S16_S1x16_1
      (muli (iotaInDim S16 32 0) (broadcastInDim S16 ![] bcast_S_S16 (constantI S_ 32 1024#32)))))

/-- A negative index is taken from the end: `i + 16384`. -/
def wrapOf (i : IVec S256x16 32) : IVec S256x16 32 :=
  select (cmpi .slt i (broadcastInDim S256x16 ![] bcast_S_S256x16 (constantI S_ 32 0#32)))
    (addi i (broadcastInDim S256x16 ![] bcast_S_S256x16 (constantI S_ 32 16384#32))) i

/-- The gather's start indices: the wrapped index with a trailing unit axis. -/
def startOf (w : IVec S256x16 32) : IVec S256x16x1 32 :=
  broadcastInDim S256x16x1 ![0, 1] bcast_S256x16_S256x16x1_0_1 w

/-- 1 where the start index lies in `[0, 16383]`. -/
def maskOf (s : IVec S256x16x1 32) : IVec S256x16 1 :=
  Host.reduce IntOp.andi
    (andi (cmpi .sge s (broadcastInDim S256x16x1 ![] bcast_S_S256x16x1 (constantI S_ 32 0#32)))
      (cmpi .sle s (broadcastInDim S256x16x1 ![0, 1, 2] bcast_S1x1x1_S256x16x1_0_1_2
        (broadcastInDim S1x1x1 ![2] bcast_S1_S1x1x1_2 (constantI S1 32 16383#32)))))
    (constantI S_ 1 1#1) reducesTo_S256x16x1_S256x16_d2 h_S_

/-- The selected rows of the transposed matrix, the fill word where the index is out of range. -/
def rowsOf (W : FVec F S16384x16384 .f32) (s : IVec S256x16x1 32) : FVec F S256x16x16384 .f32 :=
  select (broadcastInDim S256x16x16384 ![0, 1] bcast_S256x16_S256x16x16384_0_1 (maskOf s))
    (Host.gather gather_S16384x16384_S256x16x1_S256x16x16384_2_0_n_n_0_2_116384
      (transpose S16384x16384 [1, 0] W transposes_S16384x16384_S16384x16384_1_0) s)
    (broadcastInDim S256x16x16384 ![] bcast_S_S256x16x16384 (constant S_ .f32 0x7FC00000#32))

/-- The reference's result. -/
def refTerm (x : IVec S256x16 32) (W : FVec F S16384x16384 .f32) (b : FVec F S16384 .f32) : FVec F S256x16x1024 .f32 :=
  maximumf
    (shapeCast S256x16x1024
      (addf
        (Host.reduceAdd (rowsOf W (startOf (wrapOf (idxOf x)))) (constant S_ .f32 0x00000000#32)
          reducesTo_S256x16x16384_S256x16384_d1 h_S_)
        (broadcastInDim S256x16384 ![0, 1] bcast_S1x16384_S256x16384_0_1
          (broadcastInDim S1x16384 ![1] bcast_S16384_S1x16384_1 b)))
      shapeCasts_S256x16384_S256x16x1024)
    (broadcastInDim S256x16x1024 ![] bcast_S_S256x16x1024 (constant S_ .f32 0x00000000#32))

end Cert.RefTerm

end
-- ==== Proof.RefRun.lean ====
/-
  The reference program run: every weakly fair execution of its @main terminates with the result buffer at the
  pure term `RefTerm.refTerm` of the three argument arrays, and the arguments unchanged.
-/
import proofs.«409263_j59837484368248_3_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's forty operations in program order, the three outlined functions written out at their call sites over
    the buffers of each call's record: eight of @main's own (the flattened row index `x + t * 1024` and the
    transposed matrix), the take's twenty-three (the wrap of negative indices, whose select is the where's one
    operation; the start indices; the range mask; the gather; the masked rows), six more of @main's (the sum over
    the sixteen slots, the bias row, the reshape) and the relu's three. -/
abbrev ops : List (HloOp τ sig (Elt F)) :=
  [ nullary main_v0 (iotaInDim S16 32 0),
    nullary main_c (constantI S_ 32 1024#32),
    unary main_c main_v1 (broadcastInDim S16 ![] bcast_S_S16 : (⟨S_, .i32⟩ : BufTy).Contents (Elt F) → (⟨S16, .i32⟩ : BufTy).Contents (Elt F)),
    binary main_v0 main_v1 main_v2 (muli : (⟨S16, .i32⟩ : BufTy).Contents (Elt F) → (⟨S16, .i32⟩ : BufTy).Contents (Elt F) → (⟨S16, .i32⟩ : BufTy).Contents (Elt F)),
    unary main_v2 main_v3 (broadcastInDim S1x16 ![1] bcast_S16_S1x16_1 : (⟨S16, .i32⟩ : BufTy).Contents (Elt F) → (⟨S1x16, .i32⟩ : BufTy).Contents (Elt F)),
    unary main_v3 main_v4 (broadcastInDim S256x16 ![0, 1] bcast_S1x16_S256x16_0_1 : (⟨S1x16, .i32⟩ : BufTy).Contents (Elt F) → (⟨S256x16, .i32⟩ : BufTy).Contents (Elt F)),
    binary main_arg0 main_v4 main_v5 (addi : (⟨S256x16, .i32⟩ : BufTy).Contents (Elt F) → (⟨S256x16, .i32⟩ : BufTy).Contents (Elt F) → (⟨S256x16, .i32⟩ : BufTy).Contents (Elt F)),
    unary main_arg1 main_v6 ((transpose S16384x16384 [1, 0] · transposes_S16384x16384_S16384x16384_1_0) : (⟨S16384x16384, .f32⟩ : BufTy).Contents (Elt F) → (⟨S16384x16384, .f32⟩ : BufTy).Contents (Elt F)),
    TRef.nullary main_call0.c (constantI S_ 32 0#32),
    TRef.unary main_call0.c main_call0.v0 (broadcastInDim S256x16 ![] bcast_S_S256x16),
    TRef.binary (.of main_v5) main_call0.v0 main_call0.v1 (cmpi .slt),
    TRef.nullary main_call0.c_0 (constantI S_ 32 16384#32),
    TRef.unary main_call0.c_0 main_call0.v2 (broadcastInDim S256x16 ![] bcast_S_S256x16),
    TRef.binary (.of main_v5) main_call0.v2 main_call0.v3 addi,
    TRef.ternary main_call0.v1 main_call0.v3 (.of main_v5) main_call0.call0.v0 select,
    TRef.unary main_call0.call0.v0 main_call0.v5 (broadcastInDim S256x16x1 ![0, 1] bcast_S256x16_S256x16x1_0_1),
    TRef.nullary main_call0.c_1 (constantI S1 32 16383#32),
    TRef.nullary main_call0.c_2 (constantI S_ 32 0#32),
    TRef.unary main_call0.c_2 main_call0.v6 (broadcastInDim S256x16x1 ![] bcast_S_S256x16x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S256x16x1 ![0, 1, 2] bcast_S1x1x1_S256x16x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S256x16x1_S256x16_d2 h_S_),
    TRef.binary (.of main_v6) main_call0.v5 main_call0.v13 (fun x i => Host.gather gather_S16384x16384_S256x16x1_S256x16x16384_2_0_n_n_0_2_116384 x i),
    TRef.unary main_call0.v12 main_call0.v14 (broadcastInDim S256x16x16384 ![0, 1] bcast_S256x16_S256x16x16384_0_1),
    TRef.nullary main_call0.cst (constant S_ .f32 0x7FC00000#32),
    TRef.unary main_call0.cst main_call0.v15 (broadcastInDim S256x16x16384 ![] bcast_S_S256x16x16384),
    TRef.ternary main_call0.v14 main_call0.v13 main_call0.v15 main_call0.v16 select,
    nullary main_cst (constant S_ .f32 0x00000000#32),
    binary main_v7 main_cst main_v8 ((fun x v => Host.reduceAdd x v reducesTo_S256x16x16384_S256x16384_d1 h_S_) : (⟨S256x16x16384, .f32⟩ : BufTy).Contents (Elt F) → (⟨S_, .f32⟩ : BufTy).Contents (Elt F) → (⟨S256x16384, .f32⟩ : BufTy).Contents (Elt F)),
    unary main_arg2 main_v9 (broadcastInDim S1x16384 ![1] bcast_S16384_S1x16384_1 : (⟨S16384, .f32⟩ : BufTy).Contents (Elt F) → (⟨S1x16384, .f32⟩ : BufTy).Contents (Elt F)),
    unary main_v9 main_v10 (broadcastInDim S256x16384 ![0, 1] bcast_S1x16384_S256x16384_0_1 : (⟨S1x16384, .f32⟩ : BufTy).Contents (Elt F) → (⟨S256x16384, .f32⟩ : BufTy).Contents (Elt F)),
    binary main_v8 main_v10 main_v11 (addf : (⟨S256x16384, .f32⟩ : BufTy).Contents (Elt F) → (⟨S256x16384, .f32⟩ : BufTy).Contents (Elt F) → (⟨S256x16384, .f32⟩ : BufTy).Contents (Elt F)),
    reshape main_v11 main_v12 rfl shapeCasts_S256x16384_S256x16x1024,
    TRef.nullary main_call1.cst (constant S_ .f32 0x00000000#32),
    TRef.unary main_call1.cst main_call1.v0 (broadcastInDim S256x16x1024 ![] bcast_S_S256x16x1024),
    TRef.binary (.of main_v12) main_call1.v0 main_call1.v1 maximumf ]

-- forty binds re-associated, the rewrite under the chain recursing once per statement
set_option maxRecDepth 1024 in
/-- @main is that straight line: the three functions' definitions unfolded at their calls and the records at their
    fields, both sides are one chain of host steps once sequencing is re-associated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., unary_bufs_sub .., binary_bufs_sub .., reshape_bufs_sub ..,
    nullary_bufs_sub .., unary_bufs_sub .., binary_bufs_sub ..⟩

attribute [local irreducible] Host.reduce Host.reduceAdd Host.gather in
set_option maxRecDepth 8192 in
/-- The fold at the result buffer is `refTerm` of the three arguments' contents. Each operation's result is read at
    its own buffer as its function's value and at every other buffer as what was there; a function of an outlined
    body is stated at its value's type and moved to its buffer's type along an equation that, at these literal
    buffers, is between one type and itself, so the move is the identity. What is left is `refTerm` with its
    stages written out: equal by unfolding names alone (the reshape is the shape cast read at an index). The two
    reductions and the gather are kept folded meanwhile: the equation never looks inside them. -/
theorem out_eq (V : Valuation τ sig (Elt F)) :
    after ops V (main_v13 : DevRef τ sig)
      = Cert.RefTerm.refTerm (V (main_arg0 : DevRef τ sig)) (V (main_arg1 : DevRef τ sig)) (V (main_arg2 : DevRef τ sig)) := by
  after_results_simp
  simp only [TRef.toBuf, TRef.ofBuf, cast_eq]
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = Cert.RefTerm.refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.RefRun

end
-- ==== Proof.Spec.lean ====
/-
  What both programs compute, index by index, on the extended reals.

  The input `x` holds 256 rows of 16 token ids; slot `s` of a row owns the 1024 columns
  `s * 1024 … s * 1024 + 1023` of the 16384 × 16384 matrix `W` (stored [out, in]), and a token id
  `v` in `[0, 1024)` selects column `s * 1024 + v` among them. Output entry `(p, t, v)` is, with
  `n = t * 1024 + v` the flattened output column,

      max ((∑ s, W (n, s * 1024 + x (p, s))) + b n) 0.

  One side reaches this sum by multiplying row `n` of `W` with a 0/1 row that has exactly one 1 per slot;
  the law that joins the two is that a sum against such a row keeps one entry (`sum_pick`). Only
  `0 * w = 0`, `1 * w = w` and commutativity and associativity of the sum are used, all of which
  hold on the extended reals without any finiteness.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![256, 16]⟩
abbrev SW : Shape := ⟨2, ![16384, 16384]⟩
abbrev SB : Shape := ⟨1, ![16384]⟩
abbrev SO : Shape := ⟨3, ![256, 16, 1024]⟩

/-- The token id at `(p, s)` as a number below 1024 (the reduction is vacuous on ids in range). -/
def tok (x : IVec SX 32) (p : Fin 256) (s : Fin 16) : Fin 1024 :=
  ⟨(x (ix2 p s)).toNat % 1024, Nat.mod_lt _ (by norm_num)⟩

/-- Column `s * 1024 + v`: column `v` of slot `s`. -/
def flat (s : Fin 16) (v : Fin 1024) : Fin 16384 := ⟨s.val * 1024 + v.val, by have := s.isLt; have := v.isLt; omega⟩

/-- The column of `W` that slot `s` of row `p` selects. -/
def col (x : IVec SX 32) (p : Fin 256) (s : Fin 16) : Fin 16384 := flat s (tok x p s)

/-- Row `n` of `W` summed over the sixteen selected columns of input row `p`. -/
def rowSum (x : IVec SX 32) (W : FVec Ideal SW .f32) (p : Fin 256) (n : Fin 16384) : EReal :=
  ∑ s : Fin 16, W (ix2 n (col x p s))

/-- The result at `(p, t, v)`. -/
def Gat (x : IVec SX 32) (W : FVec Ideal SW .f32) (b : FVec Ideal SB .f32) (p : Fin 256) (t : Fin 16) (v : Fin 1024) : EReal :=
  max (rowSum x W p (flat t v) + b (ix1 (flat t v))) 0

/-- The result array. -/
def G (x : IVec SX 32) (W : FVec Ideal SW .f32) (b : FVec Ideal SB .f32) : FVec Ideal SO .f32 :=
  fun i => Gat x W b ⟨(i 0).val, (i 0).isLt⟩ ⟨(i 1).val, (i 1).isLt⟩ ⟨(i 2).val, (i 2).isLt⟩

theorem G_ix3 (x : IVec SX 32) (W : FVec Ideal SW .f32) (b : FVec Ideal SB .f32) (p : Fin 256) (t : Fin 16) (v : Fin 1024) :
    G x W b (ix3 p t v) = Gat x W b p t v := rfl

/-- A sum against a row that is 1 at `j` and 0 elsewhere keeps the entry at `j`. -/
theorem sum_pick {n : ℕ} (j : Fin n) (e f : Fin n → EReal) (he : ∀ k, e k = if k = j then 1 else 0) :
    ∑ k : Fin n, e k * f k = f j := by
  rw [Finset.sum_eq_single j]
  · rw [he j, if_pos rfl, one_mul]
  · intro k _ hk
    rw [he k, if_neg hk, zero_mul]
  · intro h
    exact absurd (Finset.mem_univ j) h

end Cert.Spec

end
-- ==== Proof.RefValue.lean ====
/-
  The reference's term, read at an index, is the specification `Spec.G` when every token id is below 1024:
  then `x + t * 1024` lies in `[0, 16384)`, nothing wraps, every mask bit is 1, the gather reads row
  `t * 1024 + x (p, t)` of the transposed matrix, i.e. column `t * 1024 + x (p, t)` of `W`, and the sum over
  the sixteen slots from 0 is the row sum.

  One lemma per stage, each read at explicit coordinates: the index words (`idx_toNat`, `wrap_eq`,
  `start_toNat`), the mask (`mask_one`), the row gather (`gather_row_apply`), the selected rows
  (`rows_apply`), the sum over the slots, the bias and the reshape (`sum_apply`, `bias_apply`,
  `reshape_apply`); `refTerm_eq` chains them at one output index `(p, t, v)`.
-/
import proofs.«409263_j59837484368248_3_alg».proof.Proof.RefTerm
import proofs.«409263_j59837484368248_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.RefValue

open Cert.ReferenceIdeal Idealize.ShloMosaic Idealize.ShloMosaic.ValueIdx
open Cert.ReferenceIdeal.Gen Cert.RefTerm
open scoped BigOperators

/-! ## The index words -/

/-- The flattened row index at `(p, t)` is `x (p, t) + t * 1024`, as 32-bit words. -/
private theorem idx_eq (x : IVec S256x16 32) (p : Fin 256) (t : Fin 16) :
    idxOf x (ix2 p t) = IntOp.addi (x (ix2 p t)) (IntOp.muli (BitVec.ofNat 32 t.val) 1024#32) := rfl

/-- With the token id below 1024 nothing wraps: the word's value is `x (p, t) + t * 1024`. -/
private theorem idx_toNat (x : IVec S256x16 32) (p : Fin 256) (t : Fin 16) (h : (x (ix2 p t)).toNat < 1024) :
    (idxOf x (ix2 p t)).toNat = (x (ix2 p t)).toNat + t.val * 1024 := by
  rw [idx_eq]
  have ht := t.isLt
  simp only [IntOp.addi, IntOp.muli, BitVec.toNat_add, BitVec.toNat_mul, BitVec.toNat_ofNat]
  omega

/-- A word below `2 ^ 31` is not negative, so the wrap of negative indices leaves it. -/
private theorem wrap_eq (i : IVec S256x16 32) (p : Fin 256) (t : Fin 16) (h : (i (ix2 p t)).toNat < 2 ^ 31) :
    wrapOf i (ix2 p t) = i (ix2 p t) := by
  show Scalar.select (IntOp.cmpi .slt (i (ix2 p t)) 0#32) (IntOp.addi (i (ix2 p t)) 16384#32) (i (ix2 p t)) = _
  have h0 : IntOp.cmpi .slt (i (ix2 p t)) 0#32 = 0#1 := eq_zero_of_ne_one fun h1 => by
    have h2 := (StableHlo.Predicate.slt_iff_toNat h (by decide)).1 h1
    have h3 : (0#32 : BitVec 32).toNat = 0 := rfl
    omega
  rw [h0, select_zero]

/-- The start indices are the wrapped indices with a unit axis appended. -/
private theorem startOf_apply (w : IVec S256x16 32) (p : Fin 256) (t : Fin 16) (u : Fin 1) :
    startOf w (ix3 p t u) = w (ix2 p t) :=
  broadcastInDim_apply _ _ w (ix3 p t u) (ix2 p t) fun a => match a with | ⟨0, _⟩ => rfl | ⟨1, _⟩ => rfl

/-- The gather's start index at `(p, t, 0)`: the word `x (p, t) + t * 1024`, of value below 16384. -/
private theorem start_toNat (x : IVec S256x16 32) (hx : ∀ i : S256x16.Idx, (x i).toNat < 1024) (p : Fin 256) (t : Fin 16)
    (u : Fin 1) :
    (startOf (wrapOf (idxOf x)) (ix3 p t u)).toNat = (x (ix2 p t)).toNat + t.val * 1024 := by
  rw [startOf_apply]
  have h := idx_toNat x p t (hx _)
  have ht := t.isLt
  have hxl := hx (ix2 p t)
  rw [wrap_eq _ p t (by rw [h]; omega), h]

/-! ## The mask -/

/-- A left fold by `and` from 1 over one-bit words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) 1#1 = 1#1 := by decide
    rw [List.foldl_cons, h a (List.mem_cons_self ..), e]
    exact foldl_andi_one f l fun n hn => h n (List.mem_cons_of_mem _ hn)

/-- Every start index lies in `[0, 16383]`, so every mask bit is 1. -/
private theorem mask_one (x : IVec S256x16 32) (hx : ∀ i : S256x16.Idx, (x i).toNat < 1024) (j : S256x16.Idx) :
    maskOf (startOf (wrapOf (idxOf x))) j = 1#1 := by
  unfold maskOf
  rw [Host.reduce_eq_foldl]
  refine foldl_andi_one _ _ fun i _ => ?_
  obtain ⟨a, c, u, rfl⟩ : ∃ (a : Fin 256) (c : Fin 16) (u : Fin 1), i = ix3 a c u := ⟨i 0, i 1, i 2, eq_ix3 i⟩
  show IntOp.andi (IntOp.cmpi .sge (startOf (wrapOf (idxOf x)) (ix3 a c u)) 0#32)
    (IntOp.cmpi .sle (startOf (wrapOf (idxOf x)) (ix3 a c u)) 16383#32) = 1#1
  have h := start_toNat x hx a c u
  have hc := c.isLt
  have hxl := hx (ix2 a c)
  have h0 : (0#32 : BitVec 32).toNat = 0 := rfl
  have h1 : (16383#32 : BitVec 32).toNat = 16383 := rfl
  exact IntOp.andi_eq_one.2
    ⟨(StableHlo.Predicate.sge_iff_toNat (by omega) (by decide)).2 (by omega),
     (StableHlo.Predicate.sle_iff_toNat (by omega) (by decide)).2 (by omega)⟩

/-! ## The row gather -/

/-- The gather's dimension numbers, under a short name. -/
private abbrev gd : GatherDims S16384x16384 S256x16x1 S256x16x16384 :=
  gather_S16384x16384_S256x16x1_S256x16x16384_2_0_n_n_0_2_116384

/-- On operand axis 0 (collapsed, named by the start index map) the operand coordinate is the start index at
    `(p, t, 0)`, read signed and clamped into `[0, 16383]`. -/
private theorem gd_row (idx : IVec S256x16x1 32) (p : Fin 256) (t : Fin 16) (n : Fin 16384) :
    gd.start (ix3 p t n) idx (0 : Fin 2) + gd.batchCoord (ix3 p t n) (0 : Fin 2) + gd.offCoord (ix3 p t n) (0 : Fin 2)
      = min (idx (ix3 p t (0 : Fin 1))).toInt.toNat 16383 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gd.startIndexMap from List.mem_singleton.mpr rfl)]
  have hsi : gd.siIdx (ix3 p t n) ⟨List.idxOf (0 : Fin 2) gd.startIndexMap,
      List.idxOf_lt_length_iff.2 (List.mem_singleton.mpr rfl)⟩ = ix3 p t (0 : Fin 1) := by
    funext b; refine Fin.ext ?_
    match b with
    | ⟨0, _⟩ => rfl
    | ⟨1, _⟩ => rfl
    | ⟨2, _⟩ => rfl
  rw [hsi]
  rfl

/-- On operand axis 1 (the offset axis, carried by result axis 2) the operand coordinate is `n`. -/
private theorem gd_col (idx : IVec S256x16x1 32) (p : Fin 256) (t : Fin 16) (n : Fin 16384) :
    gd.start (ix3 p t n) idx (1 : Fin 2) + gd.batchCoord (ix3 p t n) (1 : Fin 2) + gd.offCoord (ix3 p t n) (1 : Fin 2)
      = n.val := by
  rw [GatherDims.batchCoord_eq_zero _ _ _ List.not_mem_nil]
  have hs : gd.start (ix3 p t n) idx (1 : Fin 2) = 0 := by
    unfold GatherDims.start
    rw [dif_neg (show (1 : Fin 2) ∉ gd.startIndexMap from by decide)]
  rw [hs, Nat.add_zero, Nat.zero_add]
  rfl

/-- THE ROW GATHER READ AT `(p, t, n)`: the operand at row `idx (p, t, 0)` (read signed, clamped into `[0, 16383]`)
    and column `n`. -/
private theorem gather_row_apply {α : Type} (X : S16384x16384.Idx → α) (idx : IVec S256x16x1 32)
    (p : Fin 256) (t : Fin 16) (n : Fin 16384) :
    Host.gather gd X idx (ix3 p t n)
      = X (ix2 ⟨min (idx (ix3 p t (0 : Fin 1))).toInt.toNat 16383, by omega⟩ n) := by
  unfold Host.gather
  congr 1
  funext a
  refine Fin.ext ?_
  match a with
  | ⟨0, _⟩ => exact gd_row idx p t n
  | ⟨1, _⟩ => exact gd_col idx p t n

/-! ## The selected rows -/

/-- At `(p, t, n)` the selected row entry is `W (n, t * 1024 + x (p, t))`: the mask bit is 1, the start index is in
    range so the clamp leaves it, and the operand is the transpose of `W`. -/
private theorem rows_apply (x : IVec S256x16 32) (W : FVec Ideal S16384x16384 .f32)
    (hx : ∀ i : S256x16.Idx, (x i).toNat < 1024) (p : Fin 256) (t : Fin 16) (n : Fin 16384) :
    rowsOf W (startOf (wrapOf (idxOf x))) (ix3 p t n) = W (ix2 n (Cert.Spec.col x p t)) := by
  unfold rowsOf
  rw [select_apply]
  show Scalar.select (maskOf (startOf (wrapOf (idxOf x))) _) _ _ = _
  rw [mask_one x hx, select_one, gather_row_apply, transpose_ix2_apply]
  have h := start_toNat x hx p t (0 : Fin 1)
  have ht := t.isLt
  have hxl := hx (ix2 p t)
  have hi := StableHlo.Predicate.toInt_eq_toNat_of_lt
    (a := startOf (wrapOf (idxOf x)) (ix3 p t (0 : Fin 1))) (by rw [h]; omega)
  refine congrArg (fun c => W (ix2 n c)) (Fin.ext ?_)
  show min (startOf (wrapOf (idxOf x)) (ix3 p t (0 : Fin 1))).toInt.toNat 16383
    = t.val * 1024 + (x (ix2 p t)).toNat % 1024
  rw [hi, Int.toNat_natCast, h]
  omega

/-! ## The sum over the slots, the bias, the reshape -/

/-- The host's sum over axis 1 from the zero word is, at `(p, n)`, the sum over the sixteen slots. -/
private theorem sum_apply (X : FVec Ideal S256x16x16384 .f32) (p : Fin 256) (n : Fin 16384) :
    Host.reduceAdd X (constant S_ .f32 0x00000000#32) reducesTo_S256x16x16384_S256x16384_d1 h_S_ (ix2 p n)
      = ∑ t : Fin 16, X (ix3 p t n) := by
  have h : S256x16x16384.Reduces [1] S256x16384 := by decide
  show Ideal.hostReduceAdd reducesTo_S256x16x16384_S256x16384_d1 X (Ideal.ofBits .f32 0x00000000#32) (ix2 p n) = _
  rw [Ideal.hostReduceAdd_single _ h, Ideal.ofBits_zero_f32, zero_add]
  refine Finset.sum_congr rfl fun k _ => congrArg X ?_
  funext c
  refine Fin.ext ?_
  match c with
  | ⟨0, _⟩ => rfl
  | ⟨1, _⟩ => rfl
  | ⟨2, _⟩ => rfl

/-- The bias row broadcast over the 256 rows reads `b n` at `(p, n)`. -/
private theorem bias_apply (b : FVec Ideal S16384 .f32) (p : Fin 256) (n : Fin 16384) :
    broadcastInDim S256x16384 ![0, 1] bcast_S1x16384_S256x16384_0_1
      (broadcastInDim S1x16384 ![1] bcast_S16384_S1x16384_1 b) (ix2 p n) = b (ix1 n) :=
  (broadcastInDim_apply _ _ _ (ix2 p n) (ix2 (0 : Fin 1) n) fun a => match a with | ⟨0, _⟩ => rfl | ⟨1, _⟩ => rfl).trans
    (broadcastInDim_apply _ _ b (ix2 (0 : Fin 1) n) (ix1 n) fun a => match a with | ⟨0, _⟩ => rfl)

/-- The reshape `[256, 16384] → [256, 16, 1024]` reads, at `(p, t, v)`, the entry `(p, t * 1024 + v)`. -/
private theorem reshape_apply {α : Type} (Y : S256x16384.Idx → α) (p : Fin 256) (t : Fin 16) (v : Fin 1024) :
    shapeCast S256x16x1024 Y shapeCasts_S256x16384_S256x16x1024 (ix3 p t v) = Y (ix2 p (Cert.Spec.flat t v)) :=
  shapeCast_apply Y _ _ _ (by
    rw [Shape.rowMajor_val_two, Shape.rowMajor_val_three]
    show p.val * 16384 + (t.val * 1024 + v.val) = (p.val * 16 + t.val) * 1024 + v.val
    omega)

/-! ## The reference's term is the specification -/

theorem refTerm_eq (x : IVec S256x16 32) (W : FVec Ideal S16384x16384 .f32) (b : FVec Ideal S16384 .f32)
    (hx : ∀ i : S256x16.Idx, (x i).toNat < 1024) :
    Cert.RefTerm.refTerm (F := Ideal) x W b = Cert.Spec.G x W b := by
  funext i
  obtain ⟨p, t, v, rfl⟩ : ∃ (p : Fin 256) (t : Fin 16) (v : Fin 1024), i = ix3 p t v := ⟨i 0, i 1, i 2, eq_ix3 i⟩
  rw [Cert.Spec.G_ix3]
  unfold Cert.RefTerm.refTerm
  rw [maximumf_apply, reshape_apply, addf_apply, sum_apply, bias_apply]
  show max (_ + _) (Ideal.ofBits .f32 0x00000000#32) = _
  rw [Ideal.ofBits_zero_f32]
  unfold Cert.Spec.Gat Cert.Spec.rowSum
  refine congrArg (fun s => max (s + b (ix1 (Cert.Spec.flat t v))) 0) (Finset.sum_congr rfl fun s _ => ?_)
  exact rows_apply x W hx p s (Cert.Spec.flat t v)

end Cert.RefValue

end
-- ==== Proof.KerBody.lean ====
/-
  What one run of the kernel body leaves in its output block, as a pure function of the three input blocks.

  The body carries a `[256, 256]` accumulator through sixteen trips. Trip `k` loads columns
  `1024 k … 1024 k + 1023` of the first two input blocks (`slab`) and adds their product, contracted over those
  columns, to the accumulator. After the loop the bias row is added and the maximum with 0 is stored over the
  whole output block. So the block is the final payload of `accN … 16`, where `accN` is the accumulator before
  trip `n` as a plain recursion on the slabs.
-/
import proofs.«409263_j59837484368248_3_alg».proof.Proof.Gen.KernelIdeal.Frame
import Idealize.ShloMosaic.Lib.Pipeline.Value

set_option maxRecDepth 16384

noncomputable section

namespace Cert.KerBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Columns `1024 k … 1024 k + 1023` of a `[256, 16384]` array: what trip `k` loads of it. -/
abbrev slab {e : EltTy} (x : Vec F S256x16384 e) (k : Fin k0_t1_loop.trips) : Vec F S256x1024 e :=
  View.ld x (Rect.unit (s := S256x16384) (k0_off1 k) S256x1024.size (k0_off1_inb k))

/-- One trip's result: the carried value plus the product of the two slabs the trip loads. -/
theorem tripR_eq (𝒱 : Variants) (c : Dev nD) (bd : Option 𝒱.V) (i : grid0.Coords)
    (arg1 : Memref sig .tc .vmem S256x16384 .bf16) (harg1 : arg1.IsWhole) (arg2 : Memref sig .tc .vmem S256x16384 .f32) (harg2 : arg2.IsWhole)
    (arg3 : Memref sig .tc .vmem S1x256 .f32) (harg3 : arg3.IsWhole) (arg4 : Memref sig .tc .vmem S256x256 .f32) (harg4 : arg4.IsWhole)
    (x0 : Vec F S256x16384 .bf16) (x1 : Vec F S256x16384 .f32) (k : Fin k0_t1_loop.trips) (acc : FVec F S256x256 .f32) :
    tripR_k0_t1 (F := F) 𝒱 c bd i arg1 harg1 arg2 harg2 arg3 harg3 arg4 harg4 (harg1.unread x0) (harg2.unread x1) k acc
      = k0_pay2 acc (slab x0 k) (slab x1 k) := by
  unfold tripR_k0_t1 trip_k0_t1
  dsimp only
  rw [View.readAt_eq_ld, View.readAt_eq_ld, harg1.read_unread, harg2.read_unread]

/-- The accumulator before trip `n`: zero, then one product of slabs added per trip. -/
def accN (x0 : Vec F S256x16384 .bf16) (x1 : Vec F S256x16384 .f32) : ℕ → FVec F S256x256 .f32
  | 0 => k0_pay1
  | n + 1 => if h : n < k0_t1_loop.trips then k0_pay2 (accN x0 x1 n) (slab x0 ⟨n, h⟩) (slab x1 ⟨n, h⟩) else accN x0 x1 n

/-- The loop's carried value before trip `n` is that recursion. -/
theorem st_eq (𝒱 : Variants) (c : Dev nD) (bd : Option 𝒱.V) (i : grid0.Coords)
    (arg1 : Memref sig .tc .vmem S256x16384 .bf16) (harg1 : arg1.IsWhole) (arg2 : Memref sig .tc .vmem S256x16384 .f32) (harg2 : arg2.IsWhole)
    (arg3 : Memref sig .tc .vmem S1x256 .f32) (harg3 : arg3.IsWhole) (arg4 : Memref sig .tc .vmem S256x256 .f32) (harg4 : arg4.IsWhole)
    (x0 : Vec F S256x16384 .bf16) (x1 : Vec F S256x16384 .f32) :
    ∀ n, n ≤ k0_t1_loop.trips →
      st_k0_t1 (F := F) 𝒱 c bd i arg1 harg1 arg2 harg2 arg3 harg3 arg4 harg4 (harg1.unread x0) (harg2.unread x1) k0_pay1 n
        = accN x0 x1 n := by
  intro n
  induction n with
  | zero => intro _; rfl
  | succ n ih =>
    intro hn
    have h : n < k0_t1_loop.trips := hn
    have e := st_k0_t1_succ (F := F) 𝒱 c bd i arg1 harg1 arg2 harg2 arg3 harg3 arg4 harg4 (harg1.unread x0) (harg2.unread x1) k0_pay1 ⟨n, h⟩
    rw [e, ih (Nat.le_of_lt h), tripR_eq]
    show _ = dite _ _ _
    rw [dif_pos h]

theorem hz : (![0, 0] : Fin 2 → Nat) = fun _ => 0 := funext fun a => by fin_cases a <;> rfl

/-- The output block after the body: the last payload — bias row added, maximum with 0 — of the accumulator
    after all the trips. -/
theorem out_eq (c : Dev nD) (i : grid0.Coords)
    (arg1 : Memref sig .tc .vmem S256x16384 .bf16) (harg1 : arg1.IsWhole) (arg2 : Memref sig .tc .vmem S256x16384 .f32) (harg2 : arg2.IsWhole)
    (arg3 : Memref sig .tc .vmem S1x256 .f32) (harg3 : arg3.IsWhole) (arg4 : Memref sig .tc .vmem S256x256 .f32) (harg4 : arg4.IsWhole)
    (x0 : Vec F S256x16384 .bf16) (x1 : Vec F S256x16384 .f32) (x2 : Vec F S1x256 .f32) :
    out0_A_3 (F := F) c i arg1 harg1 arg2 harg2 arg3 harg3 arg4 harg4 x0 x1 x2
      = k0_pay3 (accN x0 x1 k0_t1_loop.trips) x2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero hz, View.readAt_eq_ld, harg3.read_unread, View.ld_unit_zero (S := S1x256) hz]
  exact congrArg (fun a => k0_pay3 a x2)
    (st_eq Variants.none c none i arg1 harg1 arg2 harg2 arg3 harg3 arg4 harg4 x0 x1 k0_t1_loop.trips (Nat.le_refl _))

end Cert.KerBody

end
-- ==== Proof.KerMath.lean ====
/-
  The kernel body's arithmetic on the extended reals, read at an index.

  * The body's product contracts the LAST axis of both `[256, 1024]` operands: at `(p, j)` it is
    `∑ k, l (p, k) * r (j, k)`.
  * One trip adds that product of the two slabs it loads to the accumulator (`pay2_apply`); the accumulator
    starts at 0 (`pay1_apply`); the last payload adds the bias row and takes the maximum with 0 (`pay3_apply`).
  * When row `p` of the left block is, within the 1024 columns of every slot `s`, 1 at one column `tk s` and 0
    elsewhere, the product of trip `s` keeps one entry of the right block's row `j`: the one at column
    `s * 1024 + tk s`. So after all sixteen trips the accumulator at `(p, j)` is the sum over the slots of
    those entries (`accN_apply`), and the stored block is the maximum of that sum plus the bias with 0 (`block_apply`).
-/
import proofs.«409263_j59837484368248_3_alg».proof.Proof.KerBody
import proofs.«409263_j59837484368248_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KerMath

open Idealize.ShloMosaic Idealize.ShloMosaic.ValueIdx
open Cert.KernelIdeal Cert.KernelIdeal.Gen Cert.KerBody
open scoped BigOperators

/-! ## The contraction over the last axis of both operands -/

theorem lhs_dot_S256x1024_S256x1024_S256x256_1_1_0_0_n_n_0 (j : S256x256.Idx) (q : dot_S256x1024_S256x1024_S256x256_1_1_0_0_n_n.contr.Idx) :
    (dot_S256x1024_S256x1024_S256x256_1_1_0_0_n_n.lhsIdx j q 0).val = (j 0).val := by
  unfold DotDims.lhsIdx
  rw [dif_neg (show ¬(0 : Fin S256x1024.rank) ∈ dot_S256x1024_S256x1024_S256x256_1_1_0_0_n_n.lhsBatch from List.not_mem_nil),
    dif_pos (show (0 : Fin S256x1024.rank) ∈ dot_S256x1024_S256x1024_S256x256_1_1_0_0_n_n.lhsNonContracting from List.mem_singleton.mpr rfl)]
  rfl

theorem lhs_dot_S256x1024_S256x1024_S256x256_1_1_0_0_n_n_1 (j : S256x256.Idx) (q : dot_S256x1024_S256x1024_S256x256_1_1_0_0_n_n.contr.Idx) :
    (dot_S256x1024_S256x1024_S256x256_1_1_0_0_n_n.lhsIdx j q 1).val = (q ⟨0, Nat.one_pos⟩).val :=
  dot_S256x1024_S256x1024_S256x256_1_1_0_0_n_n.lhsIdx_val_of_single rfl j q

theorem rhs_dot_S256x1024_S256x1024_S256x256_1_1_0_0_n_n_0 (j : S256x256.Idx) (q : dot_S256x1024_S256x1024_S256x256_1_1_0_0_n_n.contr.Idx) :
    (dot_S256x1024_S256x1024_S256x256_1_1_0_0_n_n.rhsIdx j q 0).val = (j 1).val := by
  unfold DotDims.rhsIdx
  rw [dif_neg (show ¬(0 : Fin S256x1024.rank) ∈ dot_S256x1024_S256x1024_S256x256_1_1_0_0_n_n.rhsBatch from List.not_mem_nil),
    dif_pos (show (0 : Fin S256x1024.rank) ∈ dot_S256x1024_S256x1024_S256x256_1_1_0_0_n_n.rhsNonContracting from List.mem_singleton.mpr rfl)]
  rfl

theorem rhs_dot_S256x1024_S256x1024_S256x256_1_1_0_0_n_n_1 (j : S256x256.Idx) (q : dot_S256x1024_S256x1024_S256x256_1_1_0_0_n_n.contr.Idx) :
    (dot_S256x1024_S256x1024_S256x256_1_1_0_0_n_n.rhsIdx j q 1).val = (q ⟨0, Nat.one_pos⟩).val :=
  dot_S256x1024_S256x1024_S256x256_1_1_0_0_n_n.rhsIdx_val_of_single rfl j q

/-- The contraction at `(p, j)`: `∑ k, l (p, k) * r (j, k)`. -/
theorem contract_sum (l r : S256x1024.Idx → EReal) (p j : Fin 256) :
    ∑ q : dot_S256x1024_S256x1024_S256x256_1_1_0_0_n_n.contr.Idx,
        l (dot_S256x1024_S256x1024_S256x256_1_1_0_0_n_n.lhsIdx (ix2 p j) q) * r (dot_S256x1024_S256x1024_S256x256_1_1_0_0_n_n.rhsIdx (ix2 p j) q)
      = ∑ k : Fin 1024, l (ix2 p k) * r (ix2 j k) := by
  rw [← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have el : dot_S256x1024_S256x1024_S256x256_1_1_0_0_n_n.lhsIdx (ix2 p j) ((contrEquiv1 dot_S256x1024_S256x1024_S256x256_1_1_0_0_n_n 1024 rfl rfl).symm k) = ix2 p k :=
    funext fun a => Fin.ext (by
      match a with
      | ⟨0, _⟩ => exact lhs_dot_S256x1024_S256x1024_S256x256_1_1_0_0_n_n_0 _ _
      | ⟨1, _⟩ => exact (lhs_dot_S256x1024_S256x1024_S256x256_1_1_0_0_n_n_1 _ _).trans hk)
  have er : dot_S256x1024_S256x1024_S256x256_1_1_0_0_n_n.rhsIdx (ix2 p j) ((contrEquiv1 dot_S256x1024_S256x1024_S256x256_1_1_0_0_n_n 1024 rfl rfl).symm k) = ix2 j k :=
    funext fun a => Fin.ext (by
      match a with
      | ⟨0, _⟩ => exact rhs_dot_S256x1024_S256x1024_S256x256_1_1_0_0_n_n_0 _ _
      | ⟨1, _⟩ => exact (rhs_dot_S256x1024_S256x1024_S256x256_1_1_0_0_n_n_1 _ _).trans hk)
  rw [el, er]

/-! ## The payloads at an index -/

/-- The accumulator starts at 0. -/
theorem pay1_apply (i : S256x256.Idx) : k0_pay1 (F := Ideal) i = 0 := by
  show Ideal.ofBits .f32 0x00000000#32 = 0
  exact Ideal.ofBits_zero_f32

/-- One trip: the carried value plus the contraction of the two loaded slabs. -/
theorem pay2_apply (acc : FVec Ideal S256x256 .f32) (v13 : Vec Ideal S256x1024 .bf16) (v16 : Vec Ideal S256x1024 .f32) (p j : Fin 256) :
    k0_pay2 acc v13 v16 (ix2 p j) = acc (ix2 p j) + ∑ k : Fin 1024, v13 (ix2 p k) * v16 (ix2 j k) := by
  unfold k0_pay2
  show acc (ix2 p j) + matmul dot_S256x1024_S256x1024_S256x256_1_1_0_0_n_n none (shapeCast S256x1024 v13 shapeCasts_S256x1024_S256x1024)
    (truncf .bf16 v16 bitsLt_bf16_f32) (constant S256x256 .f32 0x00000000#32) (ix2 p j) = _
  simp only [matmul]
  rw [Ideal.matmul_constant_zero_apply, shapeCast_self]
  exact congrArg (acc (ix2 p j) + ·) (contract_sum v13 v16 p j)

/-- The last payload: the bias row added, the maximum with 0. -/
theorem pay3_apply (v2 : FVec Ideal S256x256 .f32) (v3 : Vec Ideal S1x256 .f32) (p j : Fin 256) :
    k0_pay3 v2 v3 (ix2 p j) = max (v2 (ix2 p j) + v3 (ix2 (0 : Fin 1) j)) 0 := by
  unfold k0_pay3
  show max (v2 (ix2 p j) + broadcastTo S256x256 (shapeCast S1x256 v3 shapeCasts_S1x256_S1x256) broadcasts_S1x256_S256x256 (ix2 p j))
    (Ideal.ofBits .f32 0x00000000#32) = _
  rw [Ideal.ofBits_zero_f32, broadcastTo_1b_ab_apply, shapeCast_self]

/-! ## The accumulator under a left block that is one-hot within each slot -/

/-- The slab of trip `s` at `(p, k)` is the array at column `s * 1024 + k`. -/
theorem slab_apply {e : EltTy} (x : Vec Ideal S256x16384 e) (s : Fin 16) (hs : s.val < k0_t1_loop.trips) (p : Fin 256) (k : Fin 1024) :
    slab x ⟨s.val, hs⟩ (ix2 p k) = x (ix2 p (Cert.Spec.flat s k)) := by
  show x _ = x _
  refine congrArg x (funext fun a => Fin.ext ?_)
  have ho := congrFun (k0_off1_eq ⟨s.val, hs⟩) a
  match a with
  | ⟨0, _⟩ =>
    show k0_off1 ⟨s.val, hs⟩ 0 + 1 * p.val = p.val
    have h0 : k0_off1 ⟨s.val, hs⟩ 0 = 0 := ho
    omega
  | ⟨1, _⟩ =>
    show k0_off1 ⟨s.val, hs⟩ 1 + 1 * k.val = s.val * 1024 + k.val
    have h1 : k0_off1 ⟨s.val, hs⟩ 1 = 1024 * s.val := ho
    omega

theorem trips_eq : k0_t1_loop.trips = 16 := by decide +kernel

/-- After `n` trips the accumulator at `(p, j)` is the sum, over the slots below `n`, of the right block's
    row `j` at the column the left block's row `p` marks in that slot. -/
theorem accN_apply (x0 : Vec Ideal S256x16384 .bf16) (x1 : Vec Ideal S256x16384 .f32) (p j : Fin 256) (tk : Fin 16 → Fin 1024)
    (h0 : ∀ (s : Fin 16) (k : Fin 1024), x0 (ix2 p (Cert.Spec.flat s k)) = if k = tk s then 1 else 0) :
    ∀ n, n ≤ 16 → accN x0 x1 n (ix2 p j)
      = ∑ s ∈ Finset.univ.filter (fun s : Fin 16 => s.val < n), x1 (ix2 j (Cert.Spec.flat s (tk s))) := by
  intro n
  induction n with
  | zero =>
    intro _
    rw [show accN x0 x1 0 = k0_pay1 from rfl, pay1_apply]
    rw [Finset.sum_eq_zero]
    intro s hs
    exact absurd (Finset.mem_filter.mp hs).2 (Nat.not_lt_zero _)
  | succ n ih =>
    intro hn
    have hlt : n < 16 := hn
    have ht : n < k0_t1_loop.trips := by rw [trips_eq]; exact hlt
    rw [show accN x0 x1 (n + 1) = dite (n < k0_t1_loop.trips) _ _ from rfl, dif_pos ht, pay2_apply, ih (Nat.le_of_lt hlt)]
    have hsum : ∑ k : Fin 1024, slab x0 ⟨n, ht⟩ (ix2 p k) * slab x1 ⟨n, ht⟩ (ix2 j k)
        = x1 (ix2 j (Cert.Spec.flat ⟨n, hlt⟩ (tk ⟨n, hlt⟩))) := by
      refine (Finset.sum_congr rfl fun k _ => ?_).trans
        (Cert.Spec.sum_pick (tk ⟨n, hlt⟩) (fun k => x0 (ix2 p (Cert.Spec.flat ⟨n, hlt⟩ k))) (fun k => x1 (ix2 j (Cert.Spec.flat ⟨n, hlt⟩ k))) (h0 ⟨n, hlt⟩))
      rw [slab_apply x0 ⟨n, hlt⟩ ht p k, slab_apply x1 ⟨n, hlt⟩ ht j k]
    rw [hsum]
    have hset : Finset.univ.filter (fun s : Fin 16 => s.val < n + 1)
        = insert (⟨n, hlt⟩ : Fin 16) (Finset.univ.filter (fun s : Fin 16 => s.val < n)) := by
      ext s
      simp only [Finset.mem_filter, Finset.mem_univ, true_and, Finset.mem_insert, Fin.ext_iff]
      omega
    rw [hset, Finset.sum_insert (by
      simp only [Finset.mem_filter, Finset.mem_univ, true_and]
      exact Nat.lt_irrefl n), add_comm]

/-- The stored block at `(p, j)`, under the one-hot left block: the maximum with 0 of the sum over the
    slots plus the bias entry. -/
theorem block_apply (x0 : Vec Ideal S256x16384 .bf16) (x1 : Vec Ideal S256x16384 .f32) (x2 : Vec Ideal S1x256 .f32) (p j : Fin 256)
    (tk : Fin 16 → Fin 1024)
    (h0 : ∀ (s : Fin 16) (k : Fin 1024), x0 (ix2 p (Cert.Spec.flat s k)) = if k = tk s then 1 else 0) :
    k0_pay3 (accN x0 x1 k0_t1_loop.trips) x2 (ix2 p j)
      = max ((∑ s : Fin 16, x1 (ix2 j (Cert.Spec.flat s (tk s)))) + x2 (ix2 (0 : Fin 1) j)) 0 := by
  rw [pay3_apply, trips_eq, accN_apply x0 x1 p j tk h0 16 (Nat.le_refl _)]
  rw [Finset.filter_true_of_mem (fun s _ => s.isLt)]

end Cert.KerMath

end
-- ==== Proof.KerHost.lean ====
/-
  What the kernel's launch finds in the two arrays its host operations prepare:

  * `xflatOf x` — the token ids clamped into `[0, 1023]`, compared with `0 … 1023` along a new last axis, the
    0/1 answers as floats, and the `[256, 16, 1024]` array reshaped to `[256, 16384]`: row `p` has, in the 1024
    columns of slot `s`, a single 1 at the clamped id;
  * the bias as a `[1, 16384]` row.

  When every id is below 1024 the clamp changes nothing, and entry `(p, s * 1024 + v)` is 1 exactly when
  `v` is the id at `(p, s)`.
-/
import proofs.«409263_j59837484368248_3_alg».proof.Proof.Gen.KernelIdeal.Frame
import proofs.«409263_j59837484368248_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KerHost

open Cert.KernelIdeal Cert.KernelIdeal.Gen Idealize.ShloMosaic Idealize.ShloMosaic.TcCoe Idealize.SL.Sem Idealize.ShloMosaic.ValueIdx

variable {F : FTy → Type} [FloatOps F]

/-- The ids clamped into `[0, 1023]` (signed maximum with 0, then signed minimum with 1023). -/
def clipOf (x : IVec S256x16 32) : IVec S256x16 32 :=
  minsi (broadcastInDim S256x16 ![] bcast_S_S256x16 (id (constantI S_ 32 1023#32)))
    (maxsi (broadcastInDim S256x16 ![] bcast_S_S256x16 (id (constantI S_ 32 0#32))) x)

/-- The 0/1 design matrix, `[256, 16384]`. -/
def xflatOf (x : IVec S256x16 32) : FVec F S256x16384 .bf16 :=
  shapeCast S256x16384
    (uitofp .bf16
      (cmpi .eq
        (broadcastInDim S256x16x1024 ![0, 1, 2] bcast_S256x16x1_S256x16x1024_0_1_2
          (broadcastInDim S256x16x1 ![0, 1] bcast_S256x16_S256x16x1_0_1 (clipOf x)))
        (broadcastInDim S256x16x1024 ![0, 1, 2] bcast_S1x1x1024_S256x16x1024_0_1_2 (iotaInDim S1x1x1024 32 2))))
    shapeCasts_S256x16x1024_S256x16384

variable (m : (ℓ : Loc nD τ sig) → Buf (Elt F) ℓ)

/-- The launch finds the design matrix of the launch-time ids in the first operand's array. -/
theorem V_xflat (c : Dev nD) :
    (V m c main_v2 : S256x16384.Idx → F .bf16) = xflatOf (m ((c : Thread nD τ).loc main_arg0)) := by
  show StableHlo.after (List.flatten [hostOps0, hostOps0_1, hostOps0_2, hostOps0_3]) (fun b => m (c, b))
    (Proc.devRef .tc main_v2) = _
  simp only [hostOps0, hostOps0_1, hostOps0_2, hostOps0_3, List.flatten_cons, List.flatten_nil, List.append_nil,
    List.cons_append, List.nil_append]
  after_results
  rfl

/-- And the bias as a row in the third operand's array. -/
theorem V_bias (c : Dev nD) :
    (V m c main_v3 : S1x16384.Idx → F .f32)
      = shapeCast S1x16384 (m ((c : Thread nD τ).loc main_arg2)) shapeCasts_S16384_S1x16384 := by
  show StableHlo.after (List.flatten [hostOps0, hostOps0_1, hostOps0_2, hostOps0_3]) (fun b => m (c, b))
    (Proc.devRef .tc main_v3) = _
  simp only [hostOps0, hostOps0_1, hostOps0_2, hostOps0_3, List.flatten_cons, List.flatten_nil, List.append_nil,
    List.cons_append, List.nil_append]
  after_results
  rfl

/-- A word whose value is below 1024 is its own clamp into `[0, 1023]`: read signed it is its value, which
    is neither below 0 nor above 1023. -/
private theorem clip_word (w : BitVec 32) (hw : w.toNat < 1024) :
    IntOp.minsi 1023#32 (IntOp.maxsi 0#32 w) = w := by
  have hti : w.toInt = w.toNat := StableHlo.Predicate.toInt_eq_toNat_of_lt (by omega)
  have h0 : (0#32 : BitVec 32).toInt = 0 := by decide
  have h1 : (1023#32 : BitVec 32).toInt = 1023 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h1, decide_eq_true_eq]
  omega

/-- Under the precondition the clamp leaves every id as it is. -/
private theorem clipOf_apply (x : IVec S256x16 32) (hx : ∀ i : S256x16.Idx, (x i).toNat < 1024)
    (p : Fin 256) (s : Fin 16) : clipOf x (ix2 p s) = x (ix2 p s) := by
  show IntOp.minsi 1023#32 (IntOp.maxsi 0#32 (x (ix2 p s))) = _
  exact clip_word _ (hx _)

/-- The 0/1 answer of a word equality, as a float at `Ideal`: the bit's value. -/
private theorem uitofp_cmpi_apply {sh : Shape} (a b : IVec sh 32) (i : sh.Idx) :
    (uitofp .bf16 (cmpi .eq a b) : FVec Ideal sh .bf16) i
      = (((IntOp.cmpi .eq (a i) (b i)).toNat : ℝ) : EReal) := rfl

/-- An array over `(p, s)` broadcast along a new last axis reads, at `(p, s, v)`, its entry at `(p, s)`. -/
private theorem bcast_ids_apply (y : IVec S256x16 32) (p : Fin 256) (s : Fin 16) (v : Fin 1024) :
    broadcastInDim S256x16x1024 ![0, 1, 2] bcast_S256x16x1_S256x16x1024_0_1_2
        (broadcastInDim S256x16x1 ![0, 1] bcast_S256x16_S256x16x1_0_1 y) (ix3 p s v) = y (ix2 p s) := by
  rw [broadcastInDim_apply _ _ _ (ix3 p s v) (ix3 p s (0 : Fin 1))
      (fun a => match a with | ⟨0, _⟩ => rfl | ⟨1, _⟩ => rfl | ⟨2, _⟩ => rfl),
    broadcastInDim_apply _ _ _ (ix3 p s (0 : Fin 1)) (ix2 p s)
      (fun a => match a with | ⟨0, _⟩ => rfl | ⟨1, _⟩ => rfl)]

/-- The counter `0 … 1023` along the last axis, broadcast over `(p, s)`, reads at `(p, s, v)` the word of `v`. -/
private theorem bcast_iota_apply (p : Fin 256) (s : Fin 16) (v : Fin 1024) :
    broadcastInDim S256x16x1024 ![0, 1, 2] bcast_S1x1x1024_S256x16x1024_0_1_2 (iotaInDim S1x1x1024 32 2) (ix3 p s v)
      = BitVec.ofNat 32 v.val := by
  rw [broadcastInDim_apply _ _ _ (ix3 p s v) (ix3 (0 : Fin 1) (0 : Fin 1) v)
      (fun a => match a with | ⟨0, _⟩ => rfl | ⟨1, _⟩ => rfl | ⟨2, _⟩ => rfl)]
  rfl

/-- The design matrix at `(p, s * 1024 + v)`: 1 when `v` is the id at `(p, s)`, else 0. -/
theorem xflat_apply (x : IVec S256x16 32) (hx : ∀ i : S256x16.Idx, (x i).toNat < 1024)
    (p : Fin 256) (s : Fin 16) (v : Fin 1024) :
    xflatOf (F := Ideal) x (ix2 p (Cert.Spec.flat s v)) = if v = Cert.Spec.tok x p s then 1 else 0 := by
  unfold xflatOf
  -- the reshape: `(p, s * 1024 + v)` and `(p, s, v)` have the same row-major position
  rw [shapeCast_apply _ _ (ix2 p (Cert.Spec.flat s v)) (ix3 p s v) (by
    rw [Shape.rowMajor_val_three, Shape.rowMajor_val_two]
    show (p.val * 16 + s.val) * 1024 + v.val = p.val * 16384 + (s.val * 1024 + v.val)
    omega)]
  -- the compare's two operands at `(p, s, v)`: the clamped id at `(p, s)` and the word of `v`
  rw [uitofp_cmpi_apply, bcast_ids_apply, bcast_iota_apply, clipOf_apply x hx p s]
  have hw : (x (ix2 p s)).toNat < 1024 := hx _
  have hvl : v.val < 1024 := v.isLt
  by_cases h : v = Cert.Spec.tok x p s
  · -- the word of `v` is the id
    have hv : x (ix2 p s) = BitVec.ofNat 32 v.val := by
      apply BitVec.eq_of_toNat_eq
      rw [BitVec.toNat_ofNat, h]
      show (x (ix2 p s)).toNat = (x (ix2 p s)).toNat % 1024 % 2 ^ 32
      omega
    rw [if_pos h, StableHlo.Predicate.cmpi_eq_iff.mpr hv]
    show (((1 : ℕ) : ℝ) : EReal) = 1
    rw [Nat.cast_one, EReal.coe_one]
  · -- the word of `v` is not the id: equal words would have equal values
    have hne : IntOp.cmpi .eq (x (ix2 p s)) (BitVec.ofNat 32 v.val) = 0#1 :=
      eq_zero_of_ne_one fun h1 => h (by
        have he : x (ix2 p s) = BitVec.ofNat 32 v.val := StableHlo.Predicate.cmpi_eq_iff.mp h1
        apply Fin.ext
        show v.val = (x (ix2 p s)).toNat % 1024
        rw [he, BitVec.toNat_ofNat]
        omega)
    rw [if_neg h, hne]
    show (((0 : ℕ) : ℝ) : EReal) = 0
    rw [Nat.cast_zero, EReal.coe_zero]

/-- The bias row at `(0, n)`. -/
theorem bias_apply (b : FVec Ideal S16384 .f32) (n : Fin 16384) :
    shapeCast S1x16384 b shapeCasts_S16384_S1x16384 (ix2 0 n) = b (ix1 n) :=
  shapeCast_a_1a_apply b shapeCasts_S16384_S1x16384 0 n

end Cert.KerHost

end
-- ==== Proof.KerBlocks.lean ====
/-
  From the blocks the grid points write back to the whole output array.

  Grid point `t` (of 64) stages the whole 0/1 design matrix, rows `256 t … 256 t + 255` of `W`, entries
  `256 t … 256 t + 255` of the bias row, and writes back columns `256 t … 256 t + 255` of the `[256, 16384]` output.
  By the body's arithmetic the block it writes is, at `(p, j)`, the value `H (p, 256 t + j)` of

      H (p, n) = max ((∑ s, W (n, s * 1024 + x (p, s))) + b n) 0,

  so every written block is a restriction of the one array `H`; the 64 column blocks tile the output, hence the
  output array ends as `H`.
-/
import proofs.«409263_j59837484368248_3_alg».proof.Proof.KerMath
import proofs.«409263_j59837484368248_3_alg».proof.Proof.KerHost

set_option maxRecDepth 16384

noncomputable section

namespace Cert.KerBlocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KerBody Cert.KerMath Cert.KerHost Idealize.ShloMosaic.ValueIdx
open scoped BigOperators

variable (m : (ℓ : Loc nD τ sig) → Buf (Elt Ideal) ℓ)

/-- The output array before the final reshape. -/
def H (x : IVec S256x16 32) (W : FVec Ideal S16384x16384 .f32) (b : FVec Ideal S16384 .f32) : S256x16384.Idx → EReal :=
  fun i => max (Cert.Spec.rowSum x W ⟨(i 0).val, (i 0).isLt⟩ ⟨(i 1).val, (i 1).isLt⟩ + b (ix1 ⟨(i 1).val, (i 1).isLt⟩)) 0

/-- The three input blocks at point `t`, at their literal types. -/
abbrev xblk (c : Dev nD) (t : Fin cfg0.N) : Vec Ideal S256x16384 .bf16 := iblk m c 0 t
abbrev wblk (c : Dev nD) (t : Fin cfg0.N) : Vec Ideal S256x16384 .f32 := iblk m c 1 t
abbrev bblk (c : Dev nD) (t : Fin cfg0.N) : Vec Ideal S1x256 .f32 := iblk m c 2 t

/-- The printed index maps over the grid: the first window stays at block `(0, 0)`; the second moves down the rows,
    the third and the output along the columns, with the point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem N_eq : cfg0.N = 64 := by decide +kernel

/-- The first block is the whole design matrix. -/
theorem xblk_apply (c : Dev nD) (t : Fin cfg0.N) (p : Fin 256) (k : Fin 16384) :
    xblk m c t (ix2 p k) = (V m c main_v2 : S256x16384.Idx → EReal) (ix2 p k) := by
  show V m c main_v2 (((cfg0.win 0).blk t).view.emb (ix2 p k)) = V m c main_v2 (ix2 p k)
  obtain ⟨e0, e1, -⟩ := idx_facts t
  refine congrArg _ (funext fun a => Fin.ext ?_)
  match a with
  | ⟨0, _⟩ => show win0_0.index t (0 : Fin 2) * 256 + 1 * p.val = p.val; omega
  | ⟨1, _⟩ => show win0_0.index t (1 : Fin 2) * 16384 + 1 * k.val = k.val; omega

/-- The second block is rows `256 t …` of `W`. -/
theorem wblk_apply (c : Dev nD) (t : Fin cfg0.N) (j : Fin 256) (k : Fin 16384) (n : Fin 16384) (hn : n.val = 256 * t.val + j.val) :
    wblk m c t (ix2 j k) = (V m c main_arg1 : S16384x16384.Idx → EReal) (ix2 n k) := by
  show V m c main_arg1 (((cfg0.win 1).blk t).view.emb (ix2 j k)) = V m c main_arg1 (ix2 n k)
  obtain ⟨-, -, e2, e3, -⟩ := idx_facts t
  refine congrArg _ (funext fun a => Fin.ext ?_)
  match a with
  | ⟨0, _⟩ => show win0_1.index t (0 : Fin 2) * 256 + 1 * j.val = n.val; omega
  | ⟨1, _⟩ => show win0_1.index t (1 : Fin 2) * 16384 + 1 * k.val = k.val; omega

/-- The third block is entries `256 t …` of the bias row. -/
theorem bblk_apply (c : Dev nD) (t : Fin cfg0.N) (j : Fin 256) (n : Fin 16384) (hn : n.val = 256 * t.val + j.val) :
    bblk m c t (ix2 (0 : Fin 1) j) = (V m c main_v3 : S1x16384.Idx → EReal) (ix2 (0 : Fin 1) n) := by
  show V m c main_v3 (((cfg0.win 2).blk t).view.emb (ix2 (0 : Fin 1) j)) = V m c main_v3 (ix2 (0 : Fin 1) n)
  obtain ⟨-, -, -, -, e4, e5, -⟩ := idx_facts t
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * j.val = n.val; omega

/-- WHAT POINT `t` WRITES BACK is block `t` of `H` of the argument arrays, when every token id is below 1024. -/
theorem flushed_eq (c : Dev nD) (t : Fin cfg0.N)
    (hx : ∀ i : S256x16.Idx, (m ((c : Thread nD τ).loc main_arg0) i).toNat < 1024) :
    (dats m 0 c).flushed 3 t = ((cfg0.win 3).blk t).view.read (Elt Ideal)
      (H (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold outsAt0
  rw [out_eq]
  funext y
  obtain ⟨p, j, rfl⟩ : ∃ (p j : Fin 256), y = ix2 p j := ⟨y 0, y 1, eq_ix2 y⟩
  have ht : t.val < 64 := Nat.lt_of_lt_of_eq t.isLt N_eq
  have hn : 256 * t.val + j.val < 16384 := by have := j.isLt; omega
  obtain ⟨-, -, -, -, -, -, e6, e7⟩ := idx_facts t
  have he : ((cfg0.win 3).blk t).view.emb (ix2 p j) = ix2 p (⟨256 * t.val + j.val, hn⟩ : Fin 16384) :=
    funext fun a => Fin.ext (by
      match a with
      | ⟨0, _⟩ => show win0_3.index t (0 : Fin 2) * 256 + 1 * p.val = p.val; omega
      | ⟨1, _⟩ => show win0_3.index t (1 : Fin 2) * 256 + 1 * j.val = 256 * t.val + j.val; omega)
  show k0_pay3 (accN (xblk m c t) (wblk m c t) k0_t1_loop.trips) (bblk m c t) (ix2 p j)
    = H (m ((c : Thread nD τ).loc main_arg0)) (m ((c : Thread nD τ).loc main_arg1)) (m ((c : Thread nD τ).loc main_arg2))
        (((cfg0.win 3).blk t).view.emb (ix2 p j))
  rw [he, block_apply (xblk m c t) (wblk m c t) (bblk m c t) p j (Cert.Spec.tok (m ((c : Thread nD τ).loc main_arg0)) p)
    (fun s k => by rw [xblk_apply, V_xflat, xflat_apply _ hx])]
  show _ = max (Cert.Spec.rowSum (m ((c : Thread nD τ).loc main_arg0)) (m ((c : Thread nD τ).loc main_arg1)) p ⟨256 * t.val + j.val, hn⟩
    + m ((c : Thread nD τ).loc main_arg2) (ix1 ⟨256 * t.val + j.val, hn⟩)) 0
  unfold Cert.Spec.rowSum Cert.Spec.col
  refine congrArg (max · 0) (congrArg₂ (· + ·) (Finset.sum_congr rfl fun s _ => ?_) ?_)
  · rw [wblk_apply m c t j _ ⟨256 * t.val + j.val, hn⟩ rfl, V_main_arg1]
  · rw [bblk_apply m c t j ⟨256 * t.val + j.val, hn⟩ rfl, V_bias, bias_apply]

/-- An index of the output array is in point `t`'s block iff each coordinate is in the block's range on its axis. -/
theorem mem_blk (t : Fin cfg0.N) (i : S256x16384.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v4).slice (win0_3.rect t)).set ↔ _
  rw [View.set_slice_whole, Rect.mem_set_unit]
  exact Iff.rfl

/-- The 64 column blocks tile the output: column `n` is in the block of point `n / 256`. -/
theorem cover (i : S256x16384.Idx) : ∃ t : Fin cfg0.N, (cfg0.win 3).flush t = true ∧ i ∈ ((cfg0.win 3).blk t).view.set := by
  have hi0 : (i 0).val < 256 := (i 0).isLt
  have hi1 : (i 1).val < 16384 := (i 1).isLt
  have hq : (i 1).val / 256 < cfg0.N := by rw [N_eq]; omega
  refine ⟨⟨(i 1).val / 256, hq⟩, flush0_3 _, ?_⟩
  rw [mem_blk]
  obtain ⟨-, -, -, -, -, -, e6, e7⟩ := idx_facts ⟨(i 1).val / 256, hq⟩
  intro a
  match a with
  | ⟨0, _⟩ =>
    show win0_3.index ⟨(i 1).val / 256, hq⟩ (0 : Fin 2) * 256 ≤ (i 0).val ∧ (i 0).val < win0_3.index ⟨(i 1).val / 256, hq⟩ (0 : Fin 2) * 256 + 256
    omega
  | ⟨1, _⟩ =>
    show win0_3.index ⟨(i 1).val / 256, hq⟩ (1 : Fin 2) * 256 ≤ (i 1).val ∧ (i 1).val < win0_3.index ⟨(i 1).val / 256, hq⟩ (1 : Fin 2) * 256 + 256
    have e7' : win0_3.index ⟨(i 1).val / 256, hq⟩ (1 : Fin 2) = (i 1).val / 256 := e7
    omega

/-- THE OUTPUT ARRAY after the region is `H` of the argument arrays. -/
theorem final (c : Dev nD) (hx : ∀ i : S256x16.Idx, (m ((c : Thread nD τ).loc main_arg0) i).toNat < 1024) :
    (dats m 0 c).arrAt 3 cfg0.N
      = H (m ((c : Thread nD τ).loc main_arg0)) (m ((c : Thread nD τ).loc main_arg1)) (m ((c : Thread nD τ).loc main_arg2)) :=
  (dats m 0 c).arrAt_eq_of_cover 3 _ (fun t _ => flushed_eq m c t hx) cover

end Cert.KerBlocks

end
-- ==== Proof.KerRun.lean ====
/-
  The kernel program's run: the result buffer ends at the specification `Spec.G` of the argument arrays.

  After the region the output array holds `H` (KerBlocks); the one host operation left reshapes
  `[256, 16384]` to `[256, 16, 1024]`, which reads entry `(p, t * 1024 + v)` at `(p, t, v)`: that is `G`.
-/
import proofs.«409263_j59837484368248_3_alg».proof.Proof.KerBlocks
import Idealize.ShloMosaic.Lib.StableHlo.Run

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KerBlocks Idealize.ShloMosaic.ValueIdx Idealize.ShloMosaic.StableHlo

variable (m : (ℓ : Loc nD τ sig) → Buf (Elt Ideal) ℓ) (ρ : Dev nD → PrngReg)

/-- `H` reshaped to `[256, 16, 1024]` is `G`: row-major, `(p, t, v)` and `(p, t * 1024 + v)` are the same position. -/
theorem reshape_H (x : IVec S256x16 32) (W : FVec Ideal S16384x16384 .f32) (b : FVec Ideal S16384 .f32) :
    shapeCast S256x16x1024 (H x W b) shapeCasts_S256x16384_S256x16x1024 = Cert.Spec.G x W b := by
  funext i
  obtain ⟨p, t, v, rfl⟩ : ∃ (p : Fin 256) (t : Fin 16) (v : Fin 1024), i = ix3 p t v := ⟨i 0, i 1, i 2, eq_ix3 i⟩
  rw [shapeCast_apply (H x W b) shapeCasts_S256x16384_S256x16x1024 (ix3 p t v) (ix2 p (Cert.Spec.flat t v)) (by
    rw [Shape.rowMajor_val_two, Shape.rowMajor_val_three]
    show p.val * 16384 + (t.val * 1024 + v.val) = (p.val * 16 + t.val) * 1024 + v.val
    omega)]
  rfl

/-- The result buffer after the host tail. -/
theorem tail_eq (c : Dev nD) (hx : ∀ i : S256x16.Idx, (m ((c : Thread nD τ).loc main_arg0) i).toNat < 1024) :
    Pipeline.afterTail₀ cfgs (dats m) 0 (V0 m) [hostOps1] c main_v5
      = Cert.Spec.G (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  refine Eq.trans ?_ (reshape_H _ _ _)
  show shapeCast S256x16x1024
      (Pipeline.withArrays (cfgs 0).spec c (V0 m c) (fun w => (dats m 0 c).arrAt w (cfgs 0).N) (Proc.devRef .tc main_v4))
      shapeCasts_S256x16384_S256x16x1024 = _
  exact congrArg (fun a => shapeCast S256x16x1024 a shapeCasts_S256x16384_S256x16x1024)
    ((Pipeline.withArrays_arr spec0 launch0.win.arr_inj c _ _ 3).trans (final m c hx))

/-- When every token id is below 1024: every weakly fair execution of the kernel program terminates with the result
    buffer at `G` of the argument arrays, and the arguments unchanged. -/
theorem run (hx : ∀ (c : Dev nD) (i : S256x16.Idx), (m ((c : Thread nD τ).loc main_arg0) i).toNat < 1024) :
    θ_run defs (onTc (τ := τ) (main (F := Ideal))) ⟨m, fun _ => 0, ρ⟩ fun r => ∀ c : Dev nD,
      r.2.mem ((c.tc : Thread nD τ).loc main_v5)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c (hx c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KerRun

end
-- ==== Proof.lean ====
/-
  The certificate: the kernel program and the reference program compute the same array.

  Both take `x` (256 rows of 16 token ids), a 16384 × 16384 matrix `W` and a bias `b`, and both return, at
  `(p, t, v)` with `n = t * 1024 + v`,

      max ((∑ s, W (n, s * 1024 + x (p, s))) + b n) 0          (`Spec.G`)

  whenever every token id lies in `[0, 1024)`, which the precondition states (`PreDecode.tok_lt`).
  The reference adds `s * 1024` to the ids, gathers those rows of the transposed matrix, sums the sixteen rows, adds
  the bias and clamps below at 0 (`RefRun.run`, `RefValue.refTerm_eq`). The kernel program builds a 0/1 matrix with
  one 1 per slot at the clamped id, multiplies it with `W` block by block — each block's product accumulated over
  sixteen slabs of 1024 columns, one per slot — adds the bias and clamps (`KerRun.run`); a product against a row with
  one 1 keeps one entry (`Spec.sum_pick`), which is the reference's gathered entry. Outside `[0, 1024)` the two differ
  (the kernel clamps an id, the reference moves to another slot's columns or fills), so the range is needed.

  The three frames are the generated ones (the reference's is its run with the result dropped); the idealization
  rewrote nothing, so the preservation conjunct is trivial.
-/
import proofs.«409263_j59837484368248_3_alg».proof.Defs
import proofs.«409263_j59837484368248_3_alg».proof.Proof.Gen.Kernel
import proofs.«409263_j59837484368248_3_alg».proof.Proof.Gen.Kernel.Skeleton
import proofs.«409263_j59837484368248_3_alg».proof.Proof.Gen.Kernel.Loops
import proofs.«409263_j59837484368248_3_alg».proof.Proof.Gen.Kernel.Launch
import proofs.«409263_j59837484368248_3_alg».proof.Proof.Gen.Kernel.Points
import proofs.«409263_j59837484368248_3_alg».proof.Proof.Gen.Kernel.Frame
import proofs.«409263_j59837484368248_3_alg».proof.Proof.Gen.KernelIdeal
import proofs.«409263_j59837484368248_3_alg».proof.Proof.Gen.KernelIdeal.Skeleton
import proofs.«409263_j59837484368248_3_alg».proof.Proof.Gen.KernelIdeal.Loops
import proofs.«409263_j59837484368248_3_alg».proof.Proof.Gen.KernelIdeal.Launch
import proofs.«409263_j59837484368248_3_alg».proof.Proof.Gen.KernelIdeal.Points
import proofs.«409263_j59837484368248_3_alg».proof.Proof.Gen.KernelIdeal.Frame
import proofs.«409263_j59837484368248_3_alg».proof.Proof.Gen.ReferenceIdeal
import proofs.«409263_j59837484368248_3_alg».proof.Proof.Gen.Pre_finite_inputs
import proofs.«409263_j59837484368248_3_alg».proof.Proof.PreDecode
import proofs.«409263_j59837484368248_3_alg».proof.Proof.RefRun
import proofs.«409263_j59837484368248_3_alg».proof.Proof.RefValue
import proofs.«409263_j59837484368248_3_alg».proof.Proof.KerRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- Both programs end at `Spec.G` of arguments that agree. -/
theorem algebraic : Cert.algebraic_KernelIdeal_ReferenceIdeal := by
  intro m ρ m' ρ' hpre hagree
  have hx : ∀ (c : Dev Cert.KernelIdeal.nD) (i : Cert.KernelIdeal.S256x16.Idx),
      (m ((c.tc : Thread Cert.KernelIdeal.nD Cert.KernelIdeal.τ).loc Cert.KernelIdeal.main_arg0) i).toNat < 1024 :=
    fun c => Cert.PreDecode.tok_lt _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KerRun.run m ρ hx, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2]
  exact Cert.RefValue.refTerm_eq _ _ _ (hx c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
